-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S64x128 .f32) (main_arg6 : FVec F S64x128 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S128x64 : Shape := ⟨2, ![128, 64]⟩
abbrev S1x64 : Shape := ⟨2, ![1, 64]⟩
abbrev S100000x64 : Shape := ⟨2, ![100000, 64]⟩
abbrev S2000x64 : Shape := ⟨2, ![2000, 64]⟩
abbrev S64x100000 : Shape := ⟨2, ![64, 100000]⟩
abbrev S64x1600000 : Shape := ⟨2, ![64, 1600000]⟩
abbrev S64x12800 : Shape := ⟨2, ![64, 12800]⟩
abbrev S1x12800 : Shape := ⟨2, ![1, 12800]⟩
abbrev S12800 : Shape := ⟨1, ![12800]⟩

abbrev nBuf : Space → Nat
  | .hbm => 91
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x64, .f32⟩
  | .hbm, ⟨67, _⟩ => ⟨S128x64, .f32⟩
  | .hbm, ⟨68, _⟩ => ⟨S1x64, .f32⟩
  | .hbm, ⟨69, _⟩ => ⟨S100000x64, .f32⟩
  | .hbm, ⟨70, _⟩ => ⟨S64x100000, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S64x1600000, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S64x1600000, .f32⟩
  | .hbm, ⟨89, _⟩ => ⟨S1x1600000, .f32⟩
  | .hbm, ⟨90, _⟩ => ⟨S1600000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S64x12800, .f32⟩
  | .local _ .vmem, ⟨19, _⟩ => ⟨S64x12800, .f32⟩
  | .local _ .vmem, ⟨20, _⟩ => ⟨S64x12800, .f32⟩
  | .local _ .vmem, ⟨21, _⟩ => ⟨S64x12800, .f32⟩
  | .local _ .vmem, ⟨22, _⟩ => ⟨S1x12800, .f32⟩
  | .local _ .vmem, ⟨23, _⟩ => ⟨S1x12800, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x12800 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x12800 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x12800 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  transposes_S100000x64_S64x100000_1_0 : S100000x64.Transposes [1, 0] S64x100000
  inb_S64x12800_S64x12800_0_0 : ∀ a, (![0, 0] : Fin 2 → Nat) a + S64x12800.size a ≤ S64x12800.size a
  h_S64x12800 : 0 < S64x12800.numel
  shapeCasts_S64x12800_S64x12800 : S64x12800.ShapeCasts S64x12800
  reduces_S64x12800_S12800 : S64x12800.Reduces [0] S12800
  shapeCasts_S12800_S1x12800 : S12800.ShapeCasts S1x12800
  inb_S1x12800_S1x12800_0_0 : ∀ a, (![0, 0] : Fin 2 → Nat) a + S1x12800.size a ≤ S1x12800.size a
  h_S1x12800 : 0 < S1x12800.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S64x100000_S1600000x1_S64x1600000_0_1_n_n_1_1_641_wf : GatherDims.WF S64x100000 S1600000x1 S64x1600000 [0] [1] [] [1] [] 1 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x12800.size a ≤ S64x1600000.size a
  hwx2_0 : ∀ i : grid2.Coords, EltTy.bits .f32 = 32 ∨ (Rect.block (s := S64x1600000) S64x12800.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x12800.size a ≤ S64x1600000.size a
  hwx2_1 : ∀ i : grid2.Coords, EltTy.bits .f32 = 32 ∨ (Rect.block (s := S64x1600000) S64x12800.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x12800.size a ≤ S1x1600000.size a
  hwx2_2 : ∀ i : grid2.Coords, EltTy.bits .f32 = 32 ∨ (Rect.block (s := S1x1600000) S1x12800.size (cc2_transform_2 i) (hinb2_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S64x100000_S1600000x1_S64x1600000_0_1_n_n_1_1_641 : GatherDims S64x100000 S1600000x1 S64x1600000 where
  offsetDims := [0]
  collapsedSliceDims := [1]
  operandBatchingDims := []
  startIndicesBatchingDims := []
  startIndexMap := [1]
  indexVectorDim := 1
  sliceSizes := ![64, 1]
  wf := gather_S64x100000_S1600000x1_S64x1600000_0_1_n_n_1_1_641_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S64x12800.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S64x12800.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x12800.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.HostChain.lean ====
/-
  The host operations of the kernel's program between its three pallas_calls, read as functions.
  Every SAGE layer first averages, for each node, the feature rows of the edges that end there: the rows are
  gathered at the edges' sources (a negative index counted from the end, as jnp does), added up at the
  destinations, and divided by the number of incoming edges, at least one. That chain is the same in both
  layers and the same in the reference, so it is named once here as one function of the feature array and the two
  index rows (`segMean`) and never opened again. The other host operations only re-lay arrays: the weights are
  transposed, the bias becomes a row, the second layer's result is transposed and its columns gathered at the
  edges' ends, and the last result row is flattened.
-/
import proofs.«143506_j81243601371376_1_alg».proof.Proof.Gen.KernelIdeal.Launch
import Idealize.ShloMosaic.Lib.StableHlo.Run

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]

/-- The edges' sources: row 0 of the edge list, flattened. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' destinations: row 1 of the edge list, flattened. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A node index as a gather takes it: a negative one counted from the end (plus 100000), as a column. -/
def wrapIdx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The mean over each node's incoming edges of the feature rows at the edges' sources. -/
def segMean (feat : (⟨S100000x128, .f32⟩ : BufTy).Contents (Elt F)) (s d : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 feat (wrapIdx s)))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- The columns of a [64, 100000] array at the (wrapped) node indices `s`: a [64, 1600000] array. -/
def colGather (zT : (⟨S64x100000, .f32⟩ : BufTy).Contents (Elt F)) (s : (⟨S1600000, .i32⟩ : BufTy).Contents (Elt F)) :
    (⟨S64x1600000, .f32⟩ : BufTy).Contents (Elt F) :=
  Host.gather gather_S64x100000_S1600000x1_S64x1600000_0_1_n_n_1_1_641 zT (wrapIdx s)

variable (W : Valuation τ sig (Elt F))

/-! ## Before the first pallas_call -/

theorem ops0_v1 : StableHlo.after hostOps0 W (Proc.devRef .tc main_v1) = srcOf (W (Proc.devRef .tc main_arg1)) := by
  after_results_simp <;> rfl
theorem ops0_v3 : StableHlo.after hostOps0 W (Proc.devRef .tc main_v3) = dstOf (W (Proc.devRef .tc main_arg1)) := by
  after_results_simp <;> rfl
theorem ops0_v22 : StableHlo.after hostOps0 W (Proc.devRef .tc main_v22)
    = segMean (W (Proc.devRef .tc main_arg0)) (srcOf (W (Proc.devRef .tc main_arg1))) (dstOf (W (Proc.devRef .tc main_arg1))) := by
  after_results_simp <;> rfl
theorem ops0_v23 : StableHlo.after hostOps0 W (Proc.devRef .tc main_v23)
    = transpose S128x128 [1, 0] (W (Proc.devRef .tc main_arg2)) transposes_S128x128_S128x128_1_0 := by
  after_results_simp <;> rfl
theorem ops0_v24 : StableHlo.after hostOps0 W (Proc.devRef .tc main_v24)
    = transpose S128x128 [1, 0] (W (Proc.devRef .tc main_arg3)) transposes_S128x128_S128x128_1_0 := by
  after_results_simp <;> rfl
theorem ops0_v25 : StableHlo.after hostOps0 W (Proc.devRef .tc main_v25)
    = shapeCast _ (W (Proc.devRef .tc main_arg4)) shapeCasts_S128_S1x128 := by
  after_results_simp <;> rfl
theorem ops0_arg0 : StableHlo.after hostOps0 W (Proc.devRef .tc main_arg0) = W (Proc.devRef .tc main_arg0) := by
  after_results_simp <;> rfl

/-! ## Between the first and the second -/

theorem ops1_v45 : StableHlo.after hostOps1 W (Proc.devRef .tc main_v45)
    = segMean (W (Proc.devRef .tc main_v26)) (W (Proc.devRef .tc main_v1)) (W (Proc.devRef .tc main_v3)) := by
  after_results_simp <;> rfl
theorem ops1_v46 : StableHlo.after hostOps1 W (Proc.devRef .tc main_v46)
    = transpose S128x64 [1, 0] (W (Proc.devRef .tc main_arg5)) transposes_S64x128_S128x64_1_0 := by
  after_results_simp <;> rfl
theorem ops1_v47 : StableHlo.after hostOps1 W (Proc.devRef .tc main_v47)
    = transpose S128x64 [1, 0] (W (Proc.devRef .tc main_arg6)) transposes_S64x128_S128x64_1_0 := by
  after_results_simp <;> rfl
theorem ops1_v48 : StableHlo.after hostOps1 W (Proc.devRef .tc main_v48)
    = shapeCast _ (W (Proc.devRef .tc main_arg7)) shapeCasts_S64_S1x64 := by
  after_results_simp <;> rfl
theorem ops1_v26 : StableHlo.after hostOps1 W (Proc.devRef .tc main_v26) = W (Proc.devRef .tc main_v26) := by
  after_results_simp <;> rfl
theorem ops1_v1 : StableHlo.after hostOps1 W (Proc.devRef .tc main_v1) = W (Proc.devRef .tc main_v1) := by
  after_results_simp <;> rfl
theorem ops1_v3 : StableHlo.after hostOps1 W (Proc.devRef .tc main_v3) = W (Proc.devRef .tc main_v3) := by
  after_results_simp <;> rfl

/-! ## Between the second and the third -/

theorem ops2_v57 : StableHlo.after hostOps2 W (Proc.devRef .tc main_v57)
    = colGather (transpose S64x100000 [1, 0] (W (Proc.devRef .tc main_v49)) transposes_S100000x64_S64x100000_1_0) (W (Proc.devRef .tc main_v1)) := by
  after_results_simp <;> rfl
theorem ops2_v64 : StableHlo.after hostOps2 W (Proc.devRef .tc main_v64)
    = colGather (transpose S64x100000 [1, 0] (W (Proc.devRef .tc main_v49)) transposes_S100000x64_S64x100000_1_0) (W (Proc.devRef .tc main_v3)) := by
  after_results_simp <;> rfl

/-! ## After the third -/

theorem ops3_v66 : StableHlo.after hostOps3 W (Proc.devRef .tc main_v66)
    = shapeCast _ (W (Proc.devRef .tc main_v65)) shapeCasts_S1x1600000_S1600000 := by
  after_results_simp <;> rfl

end Cert.KernelIdeal.HostChain

end
-- ==== Proof.Spec.lean ====
/-
  The whole-array functions this certificate reads each pallas_call's result as, over the extended reals.
  A dense SAGE layer is, row by row, two matrix products and a bias: for a node n and an output channel j,
  (sum over k of A[n,k]·Wl[k,j]) + (sum over k of X[n,k]·Wr[k,j]) + b[0,j], with the weights already transposed to
  [128, O] and the bias a row [1, O]; the first layer clips the result at zero. The decode step is a column sum:
  for an edge e, the sum over the 64 channels c of zs[c,e]·zd[c,e].
-/
import Idealize.ShloMosaic.PureOps.Ideal
import Idealize.ShloMosaic.Lib.ValueIdx

noncomputable section

namespace Cert.Sage

open Idealize.ShloMosaic Idealize.ShloMosaic.ValueIdx

/-- Row n, channel j of a dense SAGE layer: (A·Wl)[n,j] + (X·Wr)[n,j] + b[0,j]. -/
def dense {N O : Nat} (A X : (⟨2, ![N, 128]⟩ : Shape).Idx → EReal) (Wl Wr : (⟨2, ![128, O]⟩ : Shape).Idx → EReal)
    (b : (⟨2, ![1, O]⟩ : Shape).Idx → EReal) : (⟨2, ![N, O]⟩ : Shape).Idx → EReal := fun i =>
  ((∑ k : Fin 128, A (ix2 (⟨(i 0).val, idx2_lt0 i⟩ : Fin N) k) * Wl (ix2 k (⟨(i 1).val, idx2_lt1 i⟩ : Fin O)))
    + (∑ k : Fin 128, X (ix2 (⟨(i 0).val, idx2_lt0 i⟩ : Fin N) k) * Wr (ix2 k (⟨(i 1).val, idx2_lt1 i⟩ : Fin O))))
    + b (ix2 (0 : Fin 1) (⟨(i 1).val, idx2_lt1 i⟩ : Fin O))

/-- The same clipped at zero (the first layer's relu). -/
def denseRelu {N O : Nat} (A X : (⟨2, ![N, 128]⟩ : Shape).Idx → EReal) (Wl Wr : (⟨2, ![128, O]⟩ : Shape).Idx → EReal)
    (b : (⟨2, ![1, O]⟩ : Shape).Idx → EReal) : (⟨2, ![N, O]⟩ : Shape).Idx → EReal := fun i =>
  max (dense A X Wl Wr b i) 0

/-- Edge e of the decode step: the sum over the 64 channels of the two gathered columns' products. -/
def colDot {E : Nat} (zs zd : (⟨2, ![64, E]⟩ : Shape).Idx → EReal) : (⟨2, ![1, E]⟩ : Shape).Idx → EReal := fun i =>
  ∑ c : Fin 64, zs (ix2 c (⟨(i 1).val, idx2_lt1 i⟩ : Fin E)) * zd (ix2 c (⟨(i 1).val, idx2_lt1 i⟩ : Fin E))

end Cert.Sage

end
-- ==== Proof.KTerm.lean ====
/-
  The link predictor as one function of its eight arguments, over the extended reals.
  `hidden` is the first SAGE layer: the dense layer (clipped at zero) of the mean of the neighbours' rows of x and of x
  itself. `embed` is the second: the same without the clip, of the mean of the neighbours' hidden rows and of the hidden
  rows. `scores` is the decode step: for each edge, the sum over the 64 channels of the product of the embeddings at
  its two ends, taken as columns of the transposed embedding and flattened to one row.
-/
import proofs.«143506_j81243601371376_1_alg».proof.Proof.HostChain
import proofs.«143506_j81243601371376_1_alg».proof.Proof.Spec

noncomputable section

namespace Cert.KernelIdeal.KTerm

open Cert.KernelIdeal Cert.KernelIdeal.Gen Cert.KernelIdeal.HostChain Idealize.ShloMosaic Idealize.ShloMosaic.TcCoe

/-- The first layer's output h = relu(mean_nbrs(x)·W1lᵀ + x·W1rᵀ + b1). -/
def hidden (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    (⟨S100000x128, .f32⟩ : BufTy).Contents (Elt Ideal) :=
  Cert.Sage.denseRelu (N := 100000) (O := 128) (segMean (F := Ideal) x0 (srcOf x1) (dstOf x1)) x0
    (transpose S128x128 [1, 0] x2 transposes_S128x128_S128x128_1_0)
    (transpose S128x128 [1, 0] x3 transposes_S128x128_S128x128_1_0)
    (shapeCast _ x4 shapeCasts_S128_S1x128)

/-- The second layer's output z = mean_nbrs(h)·W2lᵀ + h·W2rᵀ + b2. -/
def embed (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S64x128, .f32⟩ : BufTy).Contents (Elt Ideal)) (x7 : (⟨S64, .f32⟩ : BufTy).Contents (Elt Ideal)) :
    (⟨S100000x64, .f32⟩ : BufTy).Contents (Elt Ideal) :=
  Cert.Sage.dense (N := 100000) (O := 64) (segMean (F := Ideal) (hidden x0 x1 x2 x3 x4) (srcOf x1) (dstOf x1)) (hidden x0 x1 x2 x3 x4)
    (transpose S128x64 [1, 0] x5 transposes_S64x128_S128x64_1_0)
    (transpose S128x64 [1, 0] x6 transposes_S64x128_S128x64_1_0)
    (shapeCast _ x7 shapeCasts_S64_S1x64)

/-- The scores: for each edge, the dot product of the embeddings at its source and at its destination. -/
def scores (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S64x128, .f32⟩ : BufTy).Contents (Elt Ideal)) (x7 : (⟨S64, .f32⟩ : BufTy).Contents (Elt Ideal)) :
    (⟨S1600000, .f32⟩ : BufTy).Contents (Elt Ideal) :=
  shapeCast _
    (Cert.Sage.colDot (E := 1600000)
      (colGather (F := Ideal) (transpose S64x100000 [1, 0] (embed x0 x1 x2 x3 x4 x5 x6 x7) transposes_S100000x64_S64x100000_1_0) (srcOf x1))
      (colGather (F := Ideal) (transpose S64x100000 [1, 0] (embed x0 x1 x2 x3 x4 x5 x6 x7) transposes_S100000x64_S64x100000_1_0) (dstOf x1)))
    shapeCasts_S1x1600000_S1600000

end Cert.KernelIdeal.KTerm

end
-- ==== Proof.Region0.lean ====
/-
  What pallas_call 0 (the first dense SAGE layer) leaves in its result array, over the extended reals.
  The grid has 50 points; point t works on rows 2000·t … 2000·t + 1999. It loads those rows of the aggregated features A
  and of the node features X, the two whole transposed weight matrices [128, 128] and the bias row [1, 128], and stores
  (A·Wl + X·Wr) + b clipped at zero as the same rows of the result: the narrowing of the operands to bf16 is the identity on the
  extended reals, and a block product into a zero accumulator is the plain sum over the 128 contracted entries. The
  row blocks tile the result, so the array ends at `Sage.denseRelu` of the arrays the region was entered with.
-/
import proofs.«143506_j81243601371376_1_alg».proof.Proof.Gen.KernelIdeal.Frame
import proofs.«143506_j81243601371376_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

theorem hz : (![0, 0] : Fin 2 → Nat) = fun _ => 0 := funext fun a => by fin_cases a <;> rfl

/-! ## A block product at an entry -/

/-- The left operand of the block product is read at row `i 0` … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the contracted column; -/
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contracted row … -/
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at column `i 1`. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of a [2000,128]·[128,128] block product into a zero accumulator: the sum over k of l[p,k]·r[k,q]. -/
theorem blockProduct_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_contr _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row broadcast over the 2000 rows, at (p, q), is the row's entry q. -/
theorem biasRows_apply (x4 : Vec Ideal S1x128 .f32) (p : Fin 2000) (q : Fin 128) :
    broadcastTo S2000x128 (shapeCast S1x128 x4 shapeCasts_S1x128_S1x128) broadcasts_S1x128_S2000x128 (ix2 p q) = x4 (ix2 (0 : Fin 1) q) := by
  rw [shapeCast_self]
  refine broadcastTo_apply _ _ _ (ix2 (0 : Fin 1) q) (fun a => ?_)
  match a with
  | ⟨0, _⟩ => rfl
  | ⟨1, _⟩ => rfl

/-! ## The body's arithmetic at an entry -/

/-- What the body stores at (p, q), from the blocks it loaded. -/
theorem stored_apply (x0 x1 : Vec Ideal S2000x128 .f32) (x2 x3 : Vec Ideal S128x128 .f32) (x4 : Vec Ideal S1x128 .f32) (p : Fin 2000) (q : Fin 128) :
    k0_pay1 x0 x1 x2 x3 x4 (ix2 p q) = max (((∑ k : Fin 128, x0 (ix2 p k) * x2 (ix2 k q)) + (∑ k : Fin 128, x1 (ix2 p k) * x3 (ix2 k q))) + x4 (ix2 (0 : Fin 1) q)) 0 := by
  unfold k0_pay1
  simp only [shapeCast_self]
  show max ((matmul dot_S2000x128_S128x128_S2000x128_1_0_0_1_n_n none _ _ _ (ix2 p q) + matmul dot_S2000x128_S128x128_S2000x128_1_0_0_1_n_n none _ _ _ (ix2 p q)) + broadcastTo S2000x128 _ _ (ix2 p q)) (Ideal.ofBits .f32 0x00000000#32) = _
  rw [Ideal.ofBits_zero_f32, blockProduct_apply, blockProduct_apply]
  have hb := biasRows_apply x4 p q
  rw [shapeCast_self] at hb
  rw [hb]
  rfl

/-- The same against the whole arrays: if the loaded blocks are rows `i 0` of A and X, the weights and the bias row,
    the stored entry is the layer's value at `i`. -/
theorem stored_eq_layer (A X : (⟨2, ![100000, 128]⟩ : Shape).Idx → EReal) (Wl Wr : (⟨2, ![128, 128]⟩ : Shape).Idx → EReal)
    (b : (⟨2, ![1, 128]⟩ : Shape).Idx → EReal)
    (x0 x1 : Vec Ideal S2000x128 .f32) (x2 x3 : Vec Ideal S128x128 .f32) (x4 : Vec Ideal S1x128 .f32) (p : Fin 2000) (q : Fin 128)
    (i : (⟨2, ![100000, 128]⟩ : Shape).Idx) (hq : (i 1).val = q.val)
    (h0 : ∀ k : Fin 128, x0 (ix2 p k) = A (ix2 (⟨(i 0).val, idx2_lt0 i⟩ : Fin 100000) k))
    (h1 : ∀ k : Fin 128, x1 (ix2 p k) = X (ix2 (⟨(i 0).val, idx2_lt0 i⟩ : Fin 100000) k))
    (h2 : ∀ k : Fin 128, x2 (ix2 k q) = Wl (ix2 k q)) (h3 : ∀ k : Fin 128, x3 (ix2 k q) = Wr (ix2 k q))
    (h4 : x4 (ix2 (0 : Fin 1) q) = b (ix2 (0 : Fin 1) q)) :
    k0_pay1 x0 x1 x2 x3 x4 (ix2 p q) = Cert.Sage.denseRelu (N := 100000) (O := 128) A X Wl Wr b i := by
  rw [stored_apply]
  have hq' : (⟨(i 1).val, idx2_lt1 i⟩ : Fin 128) = q := Fin.ext hq
  unfold Cert.Sage.denseRelu Cert.Sage.dense
  simp only [h0, h1, h2, h3, h4, hq']

/-! ## The blocks a point loads -/

/-- The windows' block indices at a point: the three row-blocked windows at (t, 0), the weights and the bias at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 2000·t … of the aggregated features. -/
theorem rowsA (c : Dev nD) (t : Fin cfg0.N) (x : S2000x128.Idx) (j : S100000x128.Idx)
    (hj0 : (j 0).val = 2000 * t.val + (x 0).val) (hj1 : (j 1).val = (x 1).val) :
    (iblk0 V c 0 t : Vec Ideal S2000x128 .f32) x = (V c main_v22 : S100000x128.Idx → EReal) j := by
  obtain ⟨e0, e1, -⟩ := idx_facts t
  unfold iblk0
  rw [View.read_apply]
  show V c main_v22 _ = V c main_v22 _
  congr 1
  funext a
  apply Fin.ext
  match a with
  | ⟨0, _⟩ => show win0_0.index t (0 : Fin 2) * 2000 + 1 * (x 0).val = (j 0).val; rw [e0, hj0]; omega
  | ⟨1, _⟩ => show win0_0.index t (1 : Fin 2) * 128 + 1 * (x 1).val = (j 1).val; rw [e1, hj1]; omega

/-- Window 1's block at point t is the same rows of the node features. -/
theorem rowsX (c : Dev nD) (t : Fin cfg0.N) (x : S2000x128.Idx) (j : S100000x128.Idx)
    (hj0 : (j 0).val = 2000 * t.val + (x 0).val) (hj1 : (j 1).val = (x 1).val) :
    (iblk0 V c 1 t : Vec Ideal S2000x128 .f32) x = (V c main_arg0 : S100000x128.Idx → EReal) j := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 2000 + 1 * (x 0).val = (j 0).val; rw [e0, hj0]; omega
  | ⟨1, _⟩ => show win0_1.index t (1 : Fin 2) * 128 + 1 * (x 1).val = (j 1).val; rw [e1, hj1]; omega

/-- Windows 2 and 3 hold the whole weight matrices at every point. -/
theorem wholeWl (c : Dev nD) (t : Fin cfg0.N) (x : S128x128.Idx) :
    (iblk0 V c 2 t : Vec Ideal S128x128 .f32) x = (V c main_v23 : S128x128.Idx → EReal) x := by
  obtain ⟨-, -, -, -, e0, e1, -⟩ := idx_facts t
  unfold iblk0
  rw [View.read_apply]
  show V c main_v23 _ = V c main_v23 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega
theorem wholeWr (c : Dev nD) (t : Fin cfg0.N) (x : S128x128.Idx) :
    (iblk0 V c 3 t : Vec Ideal S128x128 .f32) x = (V c main_v24 : S128x128.Idx → EReal) x := by
  obtain ⟨-, -, -, -, -, -, e0, e1, -⟩ := idx_facts t
  unfold iblk0
  rw [View.read_apply]
  show V c main_v24 _ = V c main_v24 _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega
/-- Window 4 holds the bias row at every point. -/
theorem wholeBias (c : Dev nD) (t : Fin cfg0.N) (x : S1x128.Idx) :
    (iblk0 V c 4 t : Vec Ideal S1x128 .f32) x = (V c main_v25 : S1x128.Idx → EReal) x := by
  obtain ⟨-, -, -, -, -, -, -, -, e0, e1, -⟩ := idx_facts t
  unfold iblk0
  rw [View.read_apply]
  show V c main_v25 _ = V c main_v25 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-! ## What a point writes back, and the array after the run -/

/-- The layer's value of the arrays the region is entered with. -/
abbrev layer (c : Dev nD) : (⟨2, ![100000, 128]⟩ : Shape).Idx → EReal :=
  Cert.Sage.denseRelu (N := 100000) (O := 128) (V c main_v22) (V c main_arg0) (V c main_v23) (V c main_v24) (V c main_v25)

/-- Point t writes back rows 2000·t … of the layer's value. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, e0, e1⟩ := idx_facts t
  rw [View.read_apply]
  have hi0 : ((((cfg0.win 5).blk t).view.emb (ix2 p q)) 0).val = 2000 * t.val + p.val := by
    show win0_5.index t (0 : Fin 2) * 2000 + 1 * p.val = _; rw [e0]; omega
  have hi1 : ((((cfg0.win 5).blk t).view.emb (ix2 p q)) 1).val = q.val := by
    show win0_5.index t (1 : Fin 2) * 128 + 1 * q.val = _; rw [e1]; omega
  refine stored_eq_layer (V c main_v22) (V c main_arg0) (V c main_v23) (V c main_v24) (V c main_v25)
    (iblk0 V c 0 t) (iblk0 V c 1 t) (iblk0 V c 2 t) (iblk0 V c 3 t) (iblk0 V c 4 t) p q
    (((cfg0.win 5).blk t).view.emb (ix2 p q)) hi1 (fun k => ?_) (fun k => ?_) (fun k => ?_) (fun k => ?_) ?_
  · exact rowsA V c t (ix2 p k) _ hi0 rfl
  · exact rowsX V c t (ix2 p k) _ hi0 rfl
  · exact wholeWl V c t (ix2 k q)
  · exact wholeWr V c t (ix2 k q)
  · exact wholeBias V c t (ix2 (0 : Fin 1) q)

/-- An index of the result is in point t's block iff its row is among the point's 2000 rows. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- THE RESULT ARRAY after the region: the layer's value of the arrays it was entered with (row n is written by point n / 2000). -/
theorem value (c : Dev nD) :
    (dat0 (F := Ideal) V c).arrAt 5 cfg0.N
      = Cert.Sage.denseRelu (N := 100000) (O := 128) (V c main_v22) (V c main_arg0) (V c main_v23) (V c main_v24) (V c main_v25) :=
  (dat0 (F := Ideal) V c).arrAt_eq_of_cover 5 (layer V c) (fun t _ => flushed_eq V c t) fun i => by
    have h0 : (i 0).val < 100000 := (i 0).isLt
    have h1 : (i 1).val < 128 := (i 1).isLt
    have ht : (i 0).val / 2000 < cfg0.N := by show _ < 50; omega
    obtain ⟨-, -, -, -, -, -, -, -, -, -, e0, e1⟩ := idx_facts ⟨(i 0).val / 2000, ht⟩
    refine ⟨⟨(i 0).val / 2000, ht⟩, flush0_5 _, ?_⟩
    rw [mem_blk]
    intro a
    match a with
    | ⟨0, _⟩ =>
      show win0_5.index ⟨(i 0).val / 2000, ht⟩ (0 : Fin 2) * 2000 ≤ (i 0).val ∧ (i 0).val < win0_5.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win0_5.index ⟨(i 0).val / 2000, ht⟩ (1 : Fin 2) * 128 ≤ (i 1).val ∧ (i 1).val < win0_5.index ⟨(i 0).val / 2000, ht⟩ (1 : Fin 2) * 128 + 128
      rw [e1]; omega

end Cert.KernelIdeal.Region0

end
-- ==== Proof.Region1.lean ====
/-
  What pallas_call 1 (the second dense SAGE layer) leaves in its result array, over the extended reals.
  The grid has 50 points; point t works on rows 2000·t … 2000·t + 1999. It loads those rows of the aggregated features A
  and of the node features X, the two whole transposed weight matrices [128, 64] and the bias row [1, 64], and stores
  (A·Wl + X·Wr) + b as the same rows of the result: the narrowing of the operands to bf16 is the identity on the
  extended reals, and a block product into a zero accumulator is the plain sum over the 128 contracted entries. The
  row blocks tile the result, so the array ends at `Sage.dense` of the arrays the region was entered with.
-/
import proofs.«143506_j81243601371376_1_alg».proof.Proof.Gen.KernelIdeal.Frame
import proofs.«143506_j81243601371376_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

theorem hz : (![0, 0] : Fin 2 → Nat) = fun _ => 0 := funext fun a => by fin_cases a <;> rfl

/-! ## A block product at an entry -/

/-- The left operand of the block product is read at row `i 0` … -/
theorem lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and at the contracted column; -/
theorem lhs_contr (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- the right operand at the contracted row … -/
theorem rhs_contr (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and at column `i 1`. -/
theorem rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of a [2000,128]·[128,64] block product into a zero accumulator: the sum over k of l[p,k]·r[k,q]. -/
theorem blockProduct_apply (l : FVec Ideal S2000x128 .bf16) (r : FVec Ideal S128x64 .bf16) (p : Fin 2000) (q : Fin 64) :
    matmul dot_S2000x128_S128x64_S2000x64_1_0_0_1_n_n none l r (constant S2000x64 .f32 0x00000000#32) (ix2 p q)
      = ∑ k : Fin 128, l (ix2 p k) * r (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_row _ _
    | ⟨1, _⟩ => exact (lhs_contr _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row broadcast over the 2000 rows, at (p, q), is the row's entry q. -/
theorem biasRows_apply (x4 : Vec Ideal S1x64 .f32) (p : Fin 2000) (q : Fin 64) :
    broadcastTo S2000x64 (shapeCast S1x64 x4 shapeCasts_S1x64_S1x64) broadcasts_S1x64_S2000x64 (ix2 p q) = x4 (ix2 (0 : Fin 1) q) := by
  rw [shapeCast_self]
  refine broadcastTo_apply _ _ _ (ix2 (0 : Fin 1) q) (fun a => ?_)
  match a with
  | ⟨0, _⟩ => rfl
  | ⟨1, _⟩ => rfl

/-! ## The body's arithmetic at an entry -/

/-- What the body stores at (p, q), from the blocks it loaded. -/
theorem stored_apply (x0 x1 : Vec Ideal S2000x128 .f32) (x2 x3 : Vec Ideal S128x64 .f32) (x4 : Vec Ideal S1x64 .f32) (p : Fin 2000) (q : Fin 64) :
    k1_pay1 x0 x1 x2 x3 x4 (ix2 p q) = ((∑ k : Fin 128, x0 (ix2 p k) * x2 (ix2 k q)) + (∑ k : Fin 128, x1 (ix2 p k) * x3 (ix2 k q))) + x4 (ix2 (0 : Fin 1) q) := by
  unfold k1_pay1
  simp only [shapeCast_self]
  show (matmul dot_S2000x128_S128x64_S2000x64_1_0_0_1_n_n none _ _ _ (ix2 p q) + matmul dot_S2000x128_S128x64_S2000x64_1_0_0_1_n_n none _ _ _ (ix2 p q)) + broadcastTo S2000x64 _ _ (ix2 p q) = _
  rw [blockProduct_apply, blockProduct_apply]
  have hb := biasRows_apply x4 p q
  rw [shapeCast_self] at hb
  rw [hb]
  rfl

/-- The same against the whole arrays: if the loaded blocks are rows `i 0` of A and X, the weights and the bias row,
    the stored entry is the layer's value at `i`. -/
theorem stored_eq_layer (A X : (⟨2, ![100000, 128]⟩ : Shape).Idx → EReal) (Wl Wr : (⟨2, ![128, 64]⟩ : Shape).Idx → EReal)
    (b : (⟨2, ![1, 64]⟩ : Shape).Idx → EReal)
    (x0 x1 : Vec Ideal S2000x128 .f32) (x2 x3 : Vec Ideal S128x64 .f32) (x4 : Vec Ideal S1x64 .f32) (p : Fin 2000) (q : Fin 64)
    (i : (⟨2, ![100000, 64]⟩ : Shape).Idx) (hq : (i 1).val = q.val)
    (h0 : ∀ k : Fin 128, x0 (ix2 p k) = A (ix2 (⟨(i 0).val, idx2_lt0 i⟩ : Fin 100000) k))
    (h1 : ∀ k : Fin 128, x1 (ix2 p k) = X (ix2 (⟨(i 0).val, idx2_lt0 i⟩ : Fin 100000) k))
    (h2 : ∀ k : Fin 128, x2 (ix2 k q) = Wl (ix2 k q)) (h3 : ∀ k : Fin 128, x3 (ix2 k q) = Wr (ix2 k q))
    (h4 : x4 (ix2 (0 : Fin 1) q) = b (ix2 (0 : Fin 1) q)) :
    k1_pay1 x0 x1 x2 x3 x4 (ix2 p q) = Cert.Sage.dense (N := 100000) (O := 64) A X Wl Wr b i := by
  rw [stored_apply]
  have hq' : (⟨(i 1).val, idx2_lt1 i⟩ : Fin 64) = q := Fin.ext hq
  unfold Cert.Sage.dense
  simp only [h0, h1, h2, h3, h4, hq']

/-! ## The blocks a point loads -/

/-- The windows' block indices at a point: the three row-blocked windows at (t, 0), the weights and the bias at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 2000·t … of the aggregated features. -/
theorem rowsA (c : Dev nD) (t : Fin cfg1.N) (x : S2000x128.Idx) (j : S100000x128.Idx)
    (hj0 : (j 0).val = 2000 * t.val + (x 0).val) (hj1 : (j 1).val = (x 1).val) :
    (iblk1 V c 0 t : Vec Ideal S2000x128 .f32) x = (V c main_v45 : S100000x128.Idx → EReal) j := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 2000 + 1 * (x 0).val = (j 0).val; rw [e0, hj0]; omega
  | ⟨1, _⟩ => show win1_0.index t (1 : Fin 2) * 128 + 1 * (x 1).val = (j 1).val; rw [e1, hj1]; omega

/-- Window 1's block at point t is the same rows of the node features. -/
theorem rowsX (c : Dev nD) (t : Fin cfg1.N) (x : S2000x128.Idx) (j : S100000x128.Idx)
    (hj0 : (j 0).val = 2000 * t.val + (x 0).val) (hj1 : (j 1).val = (x 1).val) :
    (iblk1 V c 1 t : Vec Ideal S2000x128 .f32) x = (V c main_v26 : S100000x128.Idx → EReal) j := by
  obtain ⟨-, -, e0, e1, -⟩ := idx_facts t
  unfold iblk1
  rw [View.read_apply]
  show V c main_v26 _ = V c main_v26 _
  congr 1
  funext a
  apply Fin.ext
  match a with
  | ⟨0, _⟩ => show win1_1.index t (0 : Fin 2) * 2000 + 1 * (x 0).val = (j 0).val; rw [e0, hj0]; omega
  | ⟨1, _⟩ => show win1_1.index t (1 : Fin 2) * 128 + 1 * (x 1).val = (j 1).val; rw [e1, hj1]; omega

/-- Windows 2 and 3 hold the whole weight matrices at every point. -/
theorem wholeWl (c : Dev nD) (t : Fin cfg1.N) (x : S128x64.Idx) :
    (iblk1 V c 2 t : Vec Ideal S128x64 .f32) x = (V c main_v46 : S128x64.Idx → EReal) x := by
  obtain ⟨-, -, -, -, e0, e1, -⟩ := idx_facts t
  unfold iblk1
  rw [View.read_apply]
  show V c main_v46 _ = V c main_v46 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 64 + 1 * (x 1).val = (x 1).val; rw [e1]; omega
theorem wholeWr (c : Dev nD) (t : Fin cfg1.N) (x : S128x64.Idx) :
    (iblk1 V c 3 t : Vec Ideal S128x64 .f32) x = (V c main_v47 : S128x64.Idx → EReal) x := by
  obtain ⟨-, -, -, -, -, -, e0, e1, -⟩ := idx_facts t
  unfold iblk1
  rw [View.read_apply]
  show V c main_v47 _ = V c main_v47 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 64 + 1 * (x 1).val = (x 1).val; rw [e1]; omega
/-- Window 4 holds the bias row at every point. -/
theorem wholeBias (c : Dev nD) (t : Fin cfg1.N) (x : S1x64.Idx) :
    (iblk1 V c 4 t : Vec Ideal S1x64 .f32) x = (V c main_v48 : S1x64.Idx → EReal) x := by
  obtain ⟨-, -, -, -, -, -, -, -, e0, e1, -⟩ := idx_facts t
  unfold iblk1
  rw [View.read_apply]
  show V c main_v48 _ = V c main_v48 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-! ## What a point writes back, and the array after the run -/

/-- The layer's value of the arrays the region is entered with. -/
abbrev layer (c : Dev nD) : (⟨2, ![100000, 64]⟩ : Shape).Idx → EReal :=
  Cert.Sage.dense (N := 100000) (O := 64) (V c main_v45) (V c main_v26) (V c main_v46) (V c main_v47) (V c main_v48)

/-- Point t writes back rows 2000·t … of the layer's value. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x64) hz, View.ld_unit_zero (S := S1x64) hz]
  funext y
  obtain ⟨p, q, rfl⟩ : ∃ (p : Fin 2000) (q : Fin 64), y = ix2 p q := ⟨y 0, y 1, eq_ix2 y⟩
  obtain ⟨-, -, -, -, -, -, -, -, -, -, e0, e1⟩ := idx_facts t
  rw [View.read_apply]
  have hi0 : ((((cfg1.win 5).blk t).view.emb (ix2 p q)) 0).val = 2000 * t.val + p.val := by
    show win1_5.index t (0 : Fin 2) * 2000 + 1 * p.val = _; rw [e0]; omega
  have hi1 : ((((cfg1.win 5).blk t).view.emb (ix2 p q)) 1).val = q.val := by
    show win1_5.index t (1 : Fin 2) * 64 + 1 * q.val = _; rw [e1]; omega
  refine stored_eq_layer (V c main_v45) (V c main_v26) (V c main_v46) (V c main_v47) (V c main_v48)
    (iblk1 V c 0 t) (iblk1 V c 1 t) (iblk1 V c 2 t) (iblk1 V c 3 t) (iblk1 V c 4 t) p q
    (((cfg1.win 5).blk t).view.emb (ix2 p q)) hi1 (fun k => ?_) (fun k => ?_) (fun k => ?_) (fun k => ?_) ?_
  · exact rowsA V c t (ix2 p k) _ hi0 rfl
  · exact rowsX V c t (ix2 p k) _ hi0 rfl
  · exact wholeWl V c t (ix2 k q)
  · exact wholeWr V c t (ix2 k q)
  · exact wholeBias V c t (ix2 (0 : Fin 1) q)

/-- An index of the result is in point t's block iff its row is among the point's 2000 rows. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v49).slice (win1_5.rect t)).set ↔ _
  rw [View.set_slice_whole, Rect.mem_set_unit]
  exact Iff.rfl

/-- THE RESULT ARRAY after the region: the layer's value of the arrays it was entered with (row n is written by point n / 2000). -/
theorem value (c : Dev nD) :
    (dat1 (F := Ideal) V c).arrAt 5 cfg1.N
      = Cert.Sage.dense (N := 100000) (O := 64) (V c main_v45) (V c main_v26) (V c main_v46) (V c main_v47) (V c main_v48) :=
  (dat1 (F := Ideal) V c).arrAt_eq_of_cover 5 (layer V c) (fun t _ => flushed_eq V c t) fun i => by
    have h0 : (i 0).val < 100000 := (i 0).isLt
    have h1 : (i 1).val < 64 := (i 1).isLt
    have ht : (i 0).val / 2000 < cfg1.N := by show _ < 50; omega
    obtain ⟨-, -, -, -, -, -, -, -, -, -, e0, e1⟩ := idx_facts ⟨(i 0).val / 2000, ht⟩
    refine ⟨⟨(i 0).val / 2000, ht⟩, flush1_5 _, ?_⟩
    rw [mem_blk]
    intro a
    match a with
    | ⟨0, _⟩ =>
      show win1_5.index ⟨(i 0).val / 2000, ht⟩ (0 : Fin 2) * 2000 ≤ (i 0).val ∧ (i 0).val < win1_5.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win1_5.index ⟨(i 0).val / 2000, ht⟩ (1 : Fin 2) * 64 ≤ (i 1).val ∧ (i 1).val < win1_5.index ⟨(i 0).val / 2000, ht⟩ (1 : Fin 2) * 64 + 64
      rw [e1]; omega

end Cert.KernelIdeal.Region1

end
-- ==== Proof.Region2.lean ====
/-
  The decode step read as one function of its two input arrays, over the extended reals.
  The grid has 125 points. At point t the body holds block t of each input zs, zd : [64, 1600000] — all 64 rows,
  columns 12800·t … 12800·t + 12799 —, multiplies the two blocks entrywise, sums the products down the 64 rows from a
  zero accumulator, and stores the resulting row of 12800 sums, re-laid as [1, 12800], as block t of the output
  [1, 1600000]. The 125 output blocks tile the output's columns (column e lies in block e / 12800), and each is
  written back, so after the run the output at column e is the sum over c < 64 of zs[c,e]·zd[c,e].
-/
import proofs.«143506_j81243601371376_1_alg».proof.Proof.Gen.KernelIdeal.Frame
import proofs.«143506_j81243601371376_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- The zero offset pair is the constant zero offset. -/
theorem hz : (![0, 0] : Fin 2 → Nat) = fun _ => 0 :=
  funext fun a => match a with | ⟨0, _⟩ => rfl | ⟨1, _⟩ => rfl

/-- THE BODY AT AN INDEX: over any two [64, 12800] blocks x0, x1, the stored row at (p, q) is the sum over the 64 rows c
    of x0[c,q]·x1[c,q]. The two casts to the same shape are identities; the cast [12800] → [1, 12800] reads (p, q) at
    q; the sum-reduction over axis 0 at q is the sum over c of its source at the index q with c inserted in front,
    which is (c, q); the product is entrywise. -/
theorem pay_apply (x0 x1 : Vec Ideal S64x12800 .f32) (p : Fin 1) (q : Fin 12800) :
    k2_pay1 (F := Ideal) x0 x1 (ix2 p q) = ∑ c : Fin 64, x0 (ix2 c q) * x1 (ix2 c q) := by
  unfold k2_pay1
  simp only [shapeCast_self]
  refine (shapeCast_addUnit_apply (n := 1) ![12800] _ _ (ix2 p q)).trans ?_
  refine (Ideal.multiReduction_add_single _ _ _ _ _ _).trans ?_
  show (∑ c : Fin 64, _) = _
  refine Finset.sum_congr rfl fun c _ => ?_
  rw [mulf_apply]
  have e : (reduces_S64x12800_S12800.lift (fun a => (ix2 p q : S1x12800.Idx) a.succ) c : S64x12800.Idx) = ix2 c q := by
    funext a
    match a with
    | ⟨0, _⟩ => exact Fin.ext rfl
    | ⟨1, _⟩ => exact Fin.ext rfl
  rw [e]

/-- The three index maps, decided once over the 125 grid points: at point t every window's block index is (0, t). -/
theorem idx_facts : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- Block t of the first input at (k, q) is the array at row k, column 12800·t + q: on axis 0 the block index is 0 and
    the block is the 64 rows; on axis 1 the block index is t and the block is 12800 columns wide. -/
theorem iblk0_apply (c : Dev nD) (t : Fin cfg2.N) (k : Fin 64) (q : Fin 12800) (e : Fin 1600000)
    (he : e.val = 12800 * t.val + q.val) :
    (iblk2 (F := Ideal) V c 0 t : Vec Ideal S64x12800 .f32) (ix2 k q) = (V c main_v57 : S64x1600000.Idx → EReal) (ix2 k e) := by
  obtain ⟨e0, e1, -⟩ := idx_facts t
  unfold iblk2
  rw [View.read_apply]
  show V c main_v57 _ = V c main_v57 _
  congr 1
  funext a
  apply Fin.ext
  match a with
  | ⟨0, _⟩ => show win2_0.index t (0 : Fin 2) * 64 + 1 * k.val = k.val; rw [e0]; omega
  | ⟨1, _⟩ => show win2_0.index t (1 : Fin 2) * 12800 + 1 * q.val = e.val; rw [e1, he]; omega

/-- Block t of the second input at (k, q) is the array at row k, column 12800·t + q, likewise. -/
theorem iblk1_apply (c : Dev nD) (t : Fin cfg2.N) (k : Fin 64) (q : Fin 12800) (e : Fin 1600000)
    (he : e.val = 12800 * t.val + q.val) :
    (iblk2 (F := Ideal) V c 1 t : Vec Ideal S64x12800 .f32) (ix2 k q) = (V c main_v64 : S64x1600000.Idx → EReal) (ix2 k e) := by
  obtain ⟨-, -, e0, e1, -⟩ := idx_facts t
  unfold iblk2
  rw [View.read_apply]
  show V c main_v64 _ = V c main_v64 _
  congr 1
  funext a
  apply Fin.ext
  match a with
  | ⟨0, _⟩ => show win2_1.index t (0 : Fin 2) * 64 + 1 * k.val = k.val; rw [e0]; omega
  | ⟨1, _⟩ => show win2_1.index t (1 : Fin 2) * 12800 + 1 * q.val = e.val; rw [e1, he]; omega

/-- WHAT POINT t WRITES BACK is block t of the column sums of products: the one store fills the whole staging row
    with the body's row; at (p, q) that is the sum over c of the two input blocks' products at (c, q); the output's
    block t places (p, q) at column 12800·t + q, which is where each input block reads its array. -/
theorem flushed_eq (c : Dev nD) (t : Fin cfg2.N) :
    (dat2 (F := Ideal) V c).flushed 2 t
      = ((cfg2.win 2).blk t).view.read (Elt Ideal) (Cert.Sage.colDot (E := 1600000) (V c main_v57) (V c main_v64)) := by
  show (cfg2.win 2).cut (grid2.coords t) ((dat2 V c).after 2 t) = _
  rw [after2_2]
  unfold out2_2
  rw [View.canon_unit_zero hz]
  simp only [View.ld_unit_zero (S := S64x12800) hz]
  obtain ⟨-, -, -, -, -, e21⟩ := idx_facts t
  funext j
  obtain ⟨p, q, rfl⟩ : ∃ (p : Fin 1) (q : Fin 12800), j = ix2 p q := ⟨j 0, j 1, eq_ix2 j⟩
  refine (pay_apply (iblk2 V c 0 t) (iblk2 V c 1 t) p q).trans ?_
  rw [View.read_apply]
  unfold Cert.Sage.colDot
  refine Finset.sum_congr rfl fun k _ => ?_
  have he : (⟨((((cfg2.win 2).blk t).view.emb (ix2 p q) : S1x1600000.Idx) 1).val, idx2_lt1 _⟩ : Fin 1600000).val = 12800 * t.val + q.val := by
    show win2_2.index t (1 : Fin 2) * 12800 + 1 * q.val = 12800 * t.val + q.val
    rw [e21]; omega
  rw [iblk0_apply V c t k q _ he, iblk1_apply V c t k q _ he]

/-- An index of the output is in point t's block iff each coordinate is in the block's range on its axis. -/
theorem mem_blk (t : Fin cfg2.N) (i : S1x1600000.Idx) :
    i ∈ ((cfg2.win 2).blk t).view.set ↔ ∀ a : Fin 2, win2_2.index t a * S1x12800.size a ≤ (i a).val ∧ (i a).val < win2_2.index t a * S1x12800.size a + S1x12800.size a := by
  show i ∈ ((View.whole main_v65).slice (win2_2.rect t)).set ↔ _
  rw [View.set_slice_whole, Rect.mem_set_unit]
  exact Iff.rfl

/-- THE BLOCKS TILE THE OUTPUT: column e < 1600000 = 125·12800 lies in block e / 12800, and every point writes back. -/
theorem cover (i : S1x1600000.Idx) :
    ∃ t : Fin cfg2.N, (cfg2.win 2).flush t = true ∧ i ∈ ((cfg2.win 2).blk t).view.set := by
  have h0 : (i 0).val < 1 := idx2_lt0 i
  have h1 : (i 1).val < 1600000 := idx2_lt1 i
  obtain ⟨t, ht⟩ : ∃ t : Fin cfg2.N, t.val = (i 1).val / 12800 :=
    ⟨⟨(i 1).val / 12800, by show _ < 125; omega⟩, rfl⟩
  obtain ⟨-, -, -, -, e20, e21⟩ := idx_facts t
  refine ⟨t, flush2_2 t, ?_⟩
  rw [mem_blk]
  intro a
  match a with
  | ⟨0, _⟩ => show win2_2.index t (0 : Fin 2) * 1 ≤ (i 0).val ∧ (i 0).val < win2_2.index t (0 : Fin 2) * 1 + 1; rw [e20]; omega
  | ⟨1, _⟩ => show win2_2.index t (1 : Fin 2) * 12800 ≤ (i 1).val ∧ (i 1).val < win2_2.index t (1 : Fin 2) * 12800 + 12800; rw [e21, ht]; omega

/-- THE OUTPUT ARRAY after the run: at column e, the sum over the 64 rows c of zs[c,e]·zd[c,e]. -/
theorem value (c : Dev nD) :
    (dat2 (F := Ideal) V c).arrAt 2 cfg2.N
      = Cert.Sage.colDot (E := 1600000) (V c main_v57) (V c main_v64) := by
  exact (dat2 (F := Ideal) V c).arrAt_eq_of_cover 2 (Cert.Sage.colDot (E := 1600000) (V c main_v57) (V c main_v64))
    (fun t _ => flushed_eq V c t) (fun i => cover i)

end Cert.KernelIdeal.Region2

end
-- ==== Proof.KValue.lean ====
/-
  The kernel program's result buffer after its run, as the function `scores` of the eight arguments.
  The run's buffer contents are a fold through @main: a host stretch applies its operations, a pallas_call replaces its
  result array by what its write-backs leave. Reading the fold back from the result: the last host operation flattens
  the decode step's row; the decode step's row is the column sums of the two gathered arrays; those are columns of the
  transposed second-layer result at the edges' ends; the second-layer result is the dense layer of the neighbour mean
  of the first-layer result and of that result itself; and the first-layer result is the clipped dense layer of the
  neighbour mean of x and of x. Buffers a segment does not write are read through it unchanged.
-/
import proofs.«143506_j81243601371376_1_alg».proof.Proof.Gen.KernelIdeal.Frame
import proofs.«143506_j81243601371376_1_alg».proof.Proof.HostChain
import proofs.«143506_j81243601371376_1_alg».proof.Proof.KTerm
import proofs.«143506_j81243601371376_1_alg».proof.Proof.Region0
import proofs.«143506_j81243601371376_1_alg».proof.Proof.Region1
import proofs.«143506_j81243601371376_1_alg».proof.Proof.Region2

set_option maxRecDepth 16384

noncomputable section

namespace Cert.KernelIdeal.KValue

open Cert.KernelIdeal Cert.KernelIdeal.Gen Cert.KernelIdeal.HostChain Cert.KernelIdeal.KTerm
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Arguments the first host stretch does not write -/

theorem ops0_arg5 (W : Valuation τ sig (Elt Ideal)) : StableHlo.after hostOps0 W (Proc.devRef .tc main_arg5) = W (Proc.devRef .tc main_arg5) := by
  after_results_simp <;> rfl
theorem ops0_arg6 (W : Valuation τ sig (Elt Ideal)) : StableHlo.after hostOps0 W (Proc.devRef .tc main_arg6) = W (Proc.devRef .tc main_arg6) := by
  after_results_simp <;> rfl
theorem ops0_arg7 (W : Valuation τ sig (Elt Ideal)) : StableHlo.after hostOps0 W (Proc.devRef .tc main_arg7) = W (Proc.devRef .tc main_arg7) := by
  after_results_simp <;> rfl

/-! ## The index rows, read at every boundary that uses them -/

theorem src1 : W1 m ρ c (Proc.devRef .tc main_v1) = srcOf (m ((c : Thread nD τ).loc main_arg1)) := ops0_v1 (W0 m ρ c)
theorem dst1 : W1 m ρ c (Proc.devRef .tc main_v3) = dstOf (m ((c : Thread nD τ).loc main_arg1)) := ops0_v3 (W0 m ρ c)
theorem src2 : W2 m ρ c (Proc.devRef .tc main_v1) = srcOf (m ((c : Thread nD τ).loc main_arg1)) :=
  (W2_of_ne m ρ c main_v1 (by decide)).trans (src1 m ρ c)
theorem dst2 : W2 m ρ c (Proc.devRef .tc main_v3) = dstOf (m ((c : Thread nD τ).loc main_arg1)) :=
  (W2_of_ne m ρ c main_v3 (by decide)).trans (dst1 m ρ c)
theorem src4 : W4 m ρ c (Proc.devRef .tc main_v1) = srcOf (m ((c : Thread nD τ).loc main_arg1)) :=
  (W4_of_ne m ρ c main_v1 (by decide)).trans ((ops1_v1 (W2 m ρ c)).trans (src2 m ρ c))
theorem dst4 : W4 m ρ c (Proc.devRef .tc main_v3) = dstOf (m ((c : Thread nD τ).loc main_arg1)) :=
  (W4_of_ne m ρ c main_v3 (by decide)).trans ((ops1_v3 (W2 m ρ c)).trans (dst2 m ρ c))

/-! ## The first layer -/

/-- After pallas_call 0 its result array holds the first layer's output. -/
theorem hidden_eq : W2 m ρ c (Proc.devRef .tc main_v26)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  have e22 : V1 m ρ c main_v22 = segMean (m ((c : Thread nD τ).loc main_arg0)) (srcOf (m ((c : Thread nD τ).loc main_arg1))) (dstOf (m ((c : Thread nD τ).loc main_arg1))) :=
    ops0_v22 (W0 m ρ c)
  have e0 : V1 m ρ c main_arg0 = m ((c : Thread nD τ).loc main_arg0) := ops0_arg0 (W0 m ρ c)
  have e23 : V1 m ρ c main_v23 = transpose S128x128 [1, 0] (m ((c : Thread nD τ).loc main_arg2)) transposes_S128x128_S128x128_1_0 := ops0_v23 (W0 m ρ c)
  have e24 : V1 m ρ c main_v24 = transpose S128x128 [1, 0] (m ((c : Thread nD τ).loc main_arg3)) transposes_S128x128_S128x128_1_0 := ops0_v24 (W0 m ρ c)
  have e25 : V1 m ρ c main_v25 = shapeCast _ (m ((c : Thread nD τ).loc main_arg4)) shapeCasts_S128_S1x128 := ops0_v25 (W0 m ρ c)
  refine (W2_arr m ρ c 5).trans ((Region0.value (V1 m ρ) c).trans ?_)
  rw [e22, e0, e23, e24, e25]
  rfl

/-! ## The second layer -/

/-- After pallas_call 1 its result array holds the second layer's output. -/
theorem embed_eq : W4 m ρ c (Proc.devRef .tc main_v49)
    = embed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have a5 : W2 m ρ c (Proc.devRef .tc main_arg5) = m ((c : Thread nD τ).loc main_arg5) :=
    (W2_of_ne m ρ c main_arg5 (by decide)).trans (ops0_arg5 (W0 m ρ c))
  have a6 : W2 m ρ c (Proc.devRef .tc main_arg6) = m ((c : Thread nD τ).loc main_arg6) :=
    (W2_of_ne m ρ c main_arg6 (by decide)).trans (ops0_arg6 (W0 m ρ c))
  have a7 : W2 m ρ c (Proc.devRef .tc main_arg7) = m ((c : Thread nD τ).loc main_arg7) :=
    (W2_of_ne m ρ c main_arg7 (by decide)).trans (ops0_arg7 (W0 m ρ c))
  have e45 : V3 m ρ c main_v45 = segMean (W2 m ρ c (Proc.devRef .tc main_v26)) (W2 m ρ c (Proc.devRef .tc main_v1)) (W2 m ρ c (Proc.devRef .tc main_v3)) :=
    ops1_v45 (W2 m ρ c)
  have e26 : V3 m ρ c main_v26 = W2 m ρ c (Proc.devRef .tc main_v26) := ops1_v26 (W2 m ρ c)
  have e46 : V3 m ρ c main_v46 = transpose S128x64 [1, 0] (W2 m ρ c (Proc.devRef .tc main_arg5)) transposes_S64x128_S128x64_1_0 := ops1_v46 (W2 m ρ c)
  have e47 : V3 m ρ c main_v47 = transpose S128x64 [1, 0] (W2 m ρ c (Proc.devRef .tc main_arg6)) transposes_S64x128_S128x64_1_0 := ops1_v47 (W2 m ρ c)
  have e48 : V3 m ρ c main_v48 = shapeCast _ (W2 m ρ c (Proc.devRef .tc main_arg7)) shapeCasts_S64_S1x64 := ops1_v48 (W2 m ρ c)
  refine (W4_arr m ρ c 5).trans ((Region1.value (V3 m ρ) c).trans ?_)
  rw [e45, e26, e46, e47, e48, a5, a6, a7, src2, dst2, hidden_eq]
  rfl

/-! ## The decode step and the result -/

/-- After the last host operation the result buffer holds the scores. -/
theorem scores_eq : W7 m ρ c (Proc.devRef .tc main_v66)
    = scores (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have e57 : V5 m ρ c main_v57 = colGather (transpose S64x100000 [1, 0] (W4 m ρ c (Proc.devRef .tc main_v49)) transposes_S100000x64_S64x100000_1_0) (W4 m ρ c (Proc.devRef .tc main_v1)) :=
    ops2_v57 (W4 m ρ c)
  have e64 : V5 m ρ c main_v64 = colGather (transpose S64x100000 [1, 0] (W4 m ρ c (Proc.devRef .tc main_v49)) transposes_S100000x64_S64x100000_1_0) (W4 m ρ c (Proc.devRef .tc main_v3)) :=
    ops2_v64 (W4 m ρ c)
  have e65 : W6 m ρ c (Proc.devRef .tc main_v65) = Cert.Sage.colDot (E := 1600000) (V5 m ρ c main_v57) (V5 m ρ c main_v64) :=
    (W6_arr m ρ c 2).trans (Region2.value (V5 m ρ) c)
  refine (ops3_v66 (W6 m ρ c)).trans ?_
  rw [e65, e57, e64, src4, dst4, embed_eq]
  rfl

end Cert.KernelIdeal.KValue

end
-- ==== Proof.RefDense.lean ====
/-
  The reference's dense SAGE layers read at an index, over the extended reals.
  At a node n and a channel j the reference adds (sum over k of A[n,k]·Wlᵀ[k,j]) + b[j] first and then
  (sum over k of X[n,k]·Wrᵀ[k,j]); the shared specification adds the two sums first and the bias row last.
  Addition of extended reals is commutative and associative, so (a + c) + b = (a + b) + c and the two agree
  (the first layer under the same maximum with zero).
-/
import proofs.«143506_j81243601371376_1_alg».proof.Proof.KTerm
import proofs.«143506_j81243601371376_1_alg».proof.Proof.Gen.ReferenceIdeal
import proofs.«143506_j81243601371376_1_alg».proof.Proof.Gen.ReferenceIdeal.Read
import Idealize.ShloMosaic.Lib.Pipeline.Value
import Idealize.ShloMosaic.Lib.ValueIdx
import Idealize.ShloMosaic.PureOps.Ideal.Laws

noncomputable section

namespace Cert.RefDense

open Idealize.ShloMosaic Idealize.ShloMosaic.TcCoe Idealize.ShloMosaic.ValueIdx

/-- A host `dot_general` contracting axis 1 of a [100000,128] array with axis 0 of a [128,128] array, at (n, j):
    the sum over k of l[n,k]·r[k,j]. -/
theorem dot128 (l : (⟨Cert.ReferenceIdeal.S100000x128, .f32⟩ : BufTy).Contents (Elt Ideal))
    (r : (⟨Cert.ReferenceIdeal.S128x128, .f32⟩ : BufTy).Contents (Elt Ideal)) (i : Cert.ReferenceIdeal.S100000x128.Idx) :
    Host.dotGeneral (F := Ideal) (φ₁ := .f32) (φ₂ := .f32) Cert.ReferenceIdeal.dot_S100000x128_S128x128_S100000x128_1_0_0_1_n_n none l r i
      = ∑ k : Fin 128, l (ix2 (⟨(i 0).val, idx2_lt0 i⟩ : Fin 100000) k) * r (ix2 k (⟨(i 1).val, idx2_lt1 i⟩ : Fin 128)) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  -- the left operand's index: axis 0 is the result's row, axis 1 the contraction index
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k)
      = ix2 (⟨(i 0).val, idx2_lt0 i⟩ : Fin 100000) k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  -- the right operand's index: axis 0 is the contraction index, axis 1 the result's column
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k)
      = ix2 k (⟨(i 1).val, idx2_lt1 i⟩ : Fin 128) := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-- The same into 64 channels: a [100000,128] array against a [128,64] array. -/
theorem dot64 (l : (⟨Cert.ReferenceIdeal.S100000x128, .f32⟩ : BufTy).Contents (Elt Ideal))
    (r : (⟨Cert.ReferenceIdeal.S128x64, .f32⟩ : BufTy).Contents (Elt Ideal)) (i : Cert.ReferenceIdeal.S100000x64.Idx) :
    Host.dotGeneral (F := Ideal) (φ₁ := .f32) (φ₂ := .f32) Cert.ReferenceIdeal.dot_S100000x128_S128x64_S100000x64_1_0_0_1_n_n none l r i
      = ∑ k : Fin 128, l (ix2 (⟨(i 0).val, idx2_lt0 i⟩ : Fin 100000) k) * r (ix2 k (⟨(i 1).val, idx2_lt1 i⟩ : Fin 64)) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k)
      = ix2 (⟨(i 0).val, idx2_lt0 i⟩ : Fin 100000) k := funext fun a => Fin.ext (by
    match a with
    | ⟨0, _⟩ => exact Cert.ReferenceIdeal.Read.lhs_main_v52_0 _ _
    | ⟨1, _⟩ => exact (Cert.ReferenceIdeal.Read.lhs_main_v52_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k)
      = ix2 k (⟨(i 1).val, idx2_lt1 i⟩ : Fin 64) := funext fun a => Fin.ext (by
    match a with
    | ⟨0, _⟩ => exact (Cert.ReferenceIdeal.Read.rhs_main_v52_0 _ _).trans hk
    | ⟨1, _⟩ => exact Cert.ReferenceIdeal.Read.rhs_main_v52_1 _ _)
  rw [el, er]

/-- The bias vector broadcast to a row [1,128] and then over the 100000 rows, at (n, j): b[j]. -/
theorem bias128 (b : (⟨Cert.ReferenceIdeal.S128, .f32⟩ : BufTy).Contents (Elt Ideal)) (i : Cert.ReferenceIdeal.S100000x128.Idx) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) i
      = b (ix1 (⟨(i 1).val, idx2_lt1 i⟩ : Fin 128)) := by
  refine (broadcastInDim_apply _ Cert.ReferenceIdeal.Gen.bcast_S1x128_S100000x128_0_1 _ i
    (ix2 (0 : Fin 1) (⟨(i 1).val, idx2_lt1 i⟩ : Fin 128)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])).trans ?_
  exact broadcastInDim_apply _ Cert.ReferenceIdeal.Gen.bcast_S128_S1x128_1 b _
    (ix1 (⟨(i 1).val, idx2_lt1 i⟩ : Fin 128)) (fun a => match a with
      | ⟨0, _⟩ => by show (i 1).val = if (128 : Nat) = 1 then 0 else (i 1).val; rw [if_neg (by decide)])

/-- The same for the 64-channel bias. -/
theorem bias64 (b : (⟨Cert.ReferenceIdeal.S64, .f32⟩ : BufTy).Contents (Elt Ideal)) (i : Cert.ReferenceIdeal.S100000x64.Idx) :
    broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b) i
      = b (ix1 (⟨(i 1).val, idx2_lt1 i⟩ : Fin 64)) := by
  refine (broadcastInDim_apply _ Cert.ReferenceIdeal.Gen.bcast_S1x64_S100000x64_0_1 _ i
    (ix2 (0 : Fin 1) (⟨(i 1).val, idx2_lt1 i⟩ : Fin 64)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])).trans ?_
  exact broadcastInDim_apply _ Cert.ReferenceIdeal.Gen.bcast_S64_S1x64_1 b _
    (ix1 (⟨(i 1).val, idx2_lt1 i⟩ : Fin 64)) (fun a => match a with
      | ⟨0, _⟩ => by show (i 1).val = if (64 : Nat) = 1 then 0 else (i 1).val; rw [if_neg (by decide)])

/-- The bias vector cast to a row [1,O] (a leading unit axis added), at (0, j): b[j]. -/
theorem row128 (b : (⟨Cert.KernelIdeal.S128, .f32⟩ : BufTy).Contents (Elt Ideal)) (j : Fin 128) :
    shapeCast Cert.KernelIdeal.S1x128 b Cert.KernelIdeal.Gen.shapeCasts_S128_S1x128 (ix2 (0 : Fin 1) j) = b (ix1 j) := by
  refine (shapeCast_addUnit_apply (n := 1) ![128] b Cert.KernelIdeal.Gen.shapeCasts_S128_S1x128 (ix2 (0 : Fin 1) j)).trans ?_
  exact congrArg b (funext fun a => match a with | ⟨0, _⟩ => rfl)

theorem row64 (b : (⟨Cert.KernelIdeal.S64, .f32⟩ : BufTy).Contents (Elt Ideal)) (j : Fin 64) :
    shapeCast Cert.KernelIdeal.S1x64 b Cert.KernelIdeal.Gen.shapeCasts_S64_S1x64 (ix2 (0 : Fin 1) j) = b (ix1 j) := by
  refine (shapeCast_addUnit_apply (n := 1) ![64] b Cert.KernelIdeal.Gen.shapeCasts_S64_S1x64 (ix2 (0 : Fin 1) j)).trans ?_
  exact congrArg b (funext fun a => match a with | ⟨0, _⟩ => rfl)

/-- The reference's first dense layer — (A·W1lᵀ + b1) + x·W1rᵀ clipped at zero, the products as `dot_general`s over
    host transposes, the bias broadcast over the rows — is the kernel's (A·W1lᵀ + x·W1rᵀ) + b1 clipped at zero:
    the same three terms added in another order. -/
theorem layer1 (A X : (⟨Cert.KernelIdeal.S100000x128, .f32⟩ : BufTy).Contents (Elt Ideal))
    (x2 x3 : (⟨Cert.KernelIdeal.S128x128, .f32⟩ : BufTy).Contents (Elt Ideal)) (x4 : (⟨Cert.KernelIdeal.S128, .f32⟩ : BufTy).Contents (Elt Ideal)) :
    maximumf (F := Ideal)
        (addf
          (addf (Host.dotGeneral (φ₁ := .f32) (φ₂ := .f32) Cert.ReferenceIdeal.dot_S100000x128_S128x128_S100000x128_1_0_0_1_n_n none A
                  (transpose Cert.ReferenceIdeal.S128x128 [1, 0] x2 Cert.ReferenceIdeal.Gen.transposes_S128x128_S128x128_1_0))
                (broadcastInDim Cert.ReferenceIdeal.S100000x128 ![0, 1] Cert.ReferenceIdeal.Gen.bcast_S1x128_S100000x128_0_1
                  (broadcastInDim Cert.ReferenceIdeal.S1x128 ![1] Cert.ReferenceIdeal.Gen.bcast_S128_S1x128_1 x4)))
          (Host.dotGeneral (φ₁ := .f32) (φ₂ := .f32) Cert.ReferenceIdeal.dot_S100000x128_S128x128_S100000x128_1_0_0_1_n_n none X
            (transpose Cert.ReferenceIdeal.S128x128 [1, 0] x3 Cert.ReferenceIdeal.Gen.transposes_S128x128_S128x128_1_0)))
        (broadcastInDim Cert.ReferenceIdeal.S100000x128 ![] Cert.ReferenceIdeal.Gen.bcast_S_S100000x128 (constant Cert.ReferenceIdeal.S_ .f32 0x00000000#32))
      = Cert.Sage.denseRelu (N := 100000) (O := 128) A X
          (transpose Cert.KernelIdeal.S128x128 [1, 0] x2 Cert.KernelIdeal.Gen.transposes_S128x128_S128x128_1_0)
          (transpose Cert.KernelIdeal.S128x128 [1, 0] x3 Cert.KernelIdeal.Gen.transposes_S128x128_S128x128_1_0)
          (shapeCast Cert.KernelIdeal.S1x128 x4 Cert.KernelIdeal.Gen.shapeCasts_S128_S1x128) := by
  funext i
  -- the clip's constant, broadcast from rank 0, is the extended real 0
  have hz : broadcastInDim Cert.ReferenceIdeal.S100000x128 ![] Cert.ReferenceIdeal.Gen.bcast_S_S100000x128
      (constant (F := Ideal) Cert.ReferenceIdeal.S_ .f32 0x00000000#32) i = 0 :=
    (broadcastInDim_apply _ Cert.ReferenceIdeal.Gen.bcast_S_S100000x128 _ i ix0 (fun a => a.elim0)).trans Ideal.ofBits_zero_f32
  rw [maximumf_apply, addf_apply, addf_apply, dot128, dot128, bias128, hz]
  unfold Cert.Sage.denseRelu Cert.Sage.dense
  rw [row128]
  -- (a + c) + b = (a + b) + c
  exact congrArg (max · 0) (add_right_comm _ _ _)

/-- The reference's second dense layer, the same without the clip, into 64 channels. -/
theorem layer2 (A X : (⟨Cert.KernelIdeal.S100000x128, .f32⟩ : BufTy).Contents (Elt Ideal))
    (x5 x6 : (⟨Cert.KernelIdeal.S64x128, .f32⟩ : BufTy).Contents (Elt Ideal)) (x7 : (⟨Cert.KernelIdeal.S64, .f32⟩ : BufTy).Contents (Elt Ideal)) :
    addf (F := Ideal)
        (addf (Host.dotGeneral (φ₁ := .f32) (φ₂ := .f32) Cert.ReferenceIdeal.dot_S100000x128_S128x64_S100000x64_1_0_0_1_n_n none A
                (transpose Cert.ReferenceIdeal.S128x64 [1, 0] x5 Cert.ReferenceIdeal.Gen.transposes_S64x128_S128x64_1_0))
              (broadcastInDim Cert.ReferenceIdeal.S100000x64 ![0, 1] Cert.ReferenceIdeal.Gen.bcast_S1x64_S100000x64_0_1
                (broadcastInDim Cert.ReferenceIdeal.S1x64 ![1] Cert.ReferenceIdeal.Gen.bcast_S64_S1x64_1 x7)))
        (Host.dotGeneral (φ₁ := .f32) (φ₂ := .f32) Cert.ReferenceIdeal.dot_S100000x128_S128x64_S100000x64_1_0_0_1_n_n none X
          (transpose Cert.ReferenceIdeal.S128x64 [1, 0] x6 Cert.ReferenceIdeal.Gen.transposes_S64x128_S128x64_1_0))
      = Cert.Sage.dense (N := 100000) (O := 64) A X
          (transpose Cert.KernelIdeal.S128x64 [1, 0] x5 Cert.KernelIdeal.Gen.transposes_S64x128_S128x64_1_0)
          (transpose Cert.KernelIdeal.S128x64 [1, 0] x6 Cert.KernelIdeal.Gen.transposes_S64x128_S128x64_1_0)
          (shapeCast Cert.KernelIdeal.S1x64 x7 Cert.KernelIdeal.Gen.shapeCasts_S64_S1x64) := by
  funext i
  rw [addf_apply, addf_apply, dot64, dot64, bias64]
  unfold Cert.Sage.dense
  rw [row64]
  -- (a + c) + b = (a + b) + c
  exact add_right_comm _ _ _

end Cert.RefDense

end
-- ==== Proof.RefValue.lean ====
/-
  The reference's stages as the same functions of the arguments that the kernel's program computes.
  The reference's neighbour-mean chain is, operation for operation, the kernel program's (`segMean` of the features and
  of the two rows of the edge list): the same gather, the same two scatter-adds, the same division, so the two are one
  term. Its first dense layer is then `hidden` and its second `embed` by the layers' identity (the three terms of a layer
  added in another order), the second layer's neighbour mean being the same chain applied to the first layer's output.
-/
import proofs.«143506_j81243601371376_1_alg».proof.Proof.Gen.ReferenceIdeal.Read
import proofs.«143506_j81243601371376_1_alg».proof.Proof.KTerm
import proofs.«143506_j81243601371376_1_alg».proof.Proof.RefDense

noncomputable section

namespace Cert.RefValue

open Cert.KernelIdeal.HostChain Cert.KernelIdeal.KTerm Idealize.ShloMosaic Idealize.ShloMosaic.TcCoe

variable (x0 : (⟨Cert.KernelIdeal.S100000x128, .f32⟩ : BufTy).Contents (Elt Ideal)) (x1 : (⟨Cert.KernelIdeal.S2x1600000, .i32⟩ : BufTy).Contents (Elt Ideal))
  (x2 x3 : (⟨Cert.KernelIdeal.S128x128, .f32⟩ : BufTy).Contents (Elt Ideal)) (x4 : (⟨Cert.KernelIdeal.S128, .f32⟩ : BufTy).Contents (Elt Ideal))
  (x5 x6 : (⟨Cert.KernelIdeal.S64x128, .f32⟩ : BufTy).Contents (Elt Ideal)) (x7 : (⟨Cert.KernelIdeal.S64, .f32⟩ : BufTy).Contents (Elt Ideal))

/-- The reference's neighbour mean of any feature array is the kernel program's: the same operations. -/
theorem mean_eq (y : (⟨Cert.KernelIdeal.S100000x128, .f32⟩ : BufTy).Contents (Elt Ideal)) :
    Cert.ReferenceIdeal.Read.val_main_v22 (F := Ideal) y x1 = segMean (F := Ideal) y (srcOf x1) (dstOf x1) := rfl

/-- The second layer's neighbour mean is that chain applied to the first layer's output. -/
theorem mean2_eq : Cert.ReferenceIdeal.Read.val_main_v50 (F := Ideal) x0 x1 x2 x3 x4
    = Cert.ReferenceIdeal.Read.val_main_v22 (F := Ideal) (Cert.ReferenceIdeal.Read.val_main_v31 (F := Ideal) x0 x1 x2 x3 x4) x1 := rfl

/-- The reference's first layer is `hidden`. -/
theorem hidden_eq : Cert.ReferenceIdeal.Read.val_main_v31 (F := Ideal) x0 x1 x2 x3 x4 = hidden x0 x1 x2 x3 x4 := by
  unfold Cert.KernelIdeal.KTerm.hidden
  rw [← mean_eq x1 x0]
  exact Cert.RefDense.layer1 (Cert.ReferenceIdeal.Read.val_main_v22 (F := Ideal) x0 x1) x0 x2 x3 x4

/-- The reference's second layer is `embed`. -/
theorem embed_eq : Cert.ReferenceIdeal.Read.val_main_v58 (F := Ideal) x0 x1 x2 x3 x4 x5 x6 x7 = embed x0 x1 x2 x3 x4 x5 x6 x7 := by
  unfold Cert.KernelIdeal.KTerm.embed
  rw [← hidden_eq x0 x1 x2 x3 x4, ← mean_eq x1 (Cert.ReferenceIdeal.Read.val_main_v31 (F := Ideal) x0 x1 x2 x3 x4), ← mean2_eq x0 x1 x2 x3 x4]
  exact Cert.RefDense.layer2 (Cert.ReferenceIdeal.Read.val_main_v50 (F := Ideal) x0 x1 x2 x3 x4)
    (Cert.ReferenceIdeal.Read.val_main_v31 (F := Ideal) x0 x1 x2 x3 x4) x5 x6 x7

end Cert.RefValue

end
-- ==== Proof.Decode.lean ====
/-
  The decode step of the two programs is the same function of the node embedding z : [100000, 64] and the two columns
  of node indices is, id : [1600000, 1]. A gather reads each index word as a signed integer and clamps it into
  [0, 99999]; call the clamped node of edge e in a column r(e). The reference gathers ROWS of z, G[e, k] = z[r(e), k],
  multiplies the two gathered arrays and sums over k with initial value 0. The kernel gathers COLUMNS of the transpose
  zT : [64, 100000], H[c, e] = zT[c, r(e)] = z[r(e), c], sums the products down the 64 channels into a [1, 1600000]
  row and flattens it. At every edge e both are the sum over c < 64 of z[r_s(e), c] · z[r_d(e), c], term by term
  (with 0 + x = x for the initial value).
-/
import proofs.«143506_j81243601371376_1_alg».proof.Proof.KTerm
import proofs.«143506_j81243601371376_1_alg».proof.Proof.Gen.ReferenceIdeal
import Idealize.ShloMosaic.Lib.Pipeline.Value
import Idealize.ShloMosaic.Lib.ValueIdx
import Idealize.ShloMosaic.PureOps.Ideal.Laws

noncomputable section

namespace Cert.Decode

open Idealize.ShloMosaic Idealize.ShloMosaic.TcCoe Idealize.ShloMosaic.ValueIdx

/-- The row of z an edge end reads: the index word read as a signed integer, clamped into [0, 99999]. -/
def clampNode (idx : IVec ⟨2, ![1600000, 1]⟩ 32) (e : Fin 1600000) : Fin 100000 :=
  ⟨min (idx (ix2 e 0)).toInt.toNat 99999, by omega⟩

/-- The row gather's dimension numbers: the result's axis 1 is z's axis 1 (whole rows of 64), z's axis 0 is indexed. -/
abbrev dR := Cert.ReferenceIdeal.gather_S100000x64_S1600000x1_S1600000x64_1_0_n_n_0_1_164
/-- The column gather's dimension numbers: the result's axis 0 is zT's axis 0 (whole columns of 64), zT's axis 1 is indexed. -/
abbrev dK := Cert.KernelIdeal.gather_S64x100000_S1600000x1_S64x1600000_0_1_n_n_1_1_641

/-- The row gather at (edge e, channel k) is z at (the clamped node of e, k): on axis 0 the clamped start index alone
    (no batching axis, a collapsed axis has no offset), on axis 1 the offset coordinate k alone (start 0). -/
theorem gatherRows_apply {α : Type} (z : (⟨2, ![100000, 64]⟩ : Shape).Idx → α) (idx : IVec ⟨2, ![1600000, 1]⟩ 32)
    (e : Fin 1600000) (k : Fin 64) :
    Host.gather dR z idx (ix2 e k) = z (ix2 (clampNode idx e) k) := by
  unfold Host.gather
  refine congrArg z (funext fun a => Fin.ext ?_)
  match a with
  | ⟨0, _⟩ =>
    show dR.start (ix2 e k) idx 0 + dR.batchCoord (ix2 e k) 0 + dR.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dR.startIndexMap from List.mem_singleton.mpr rfl)]
    have hsi : dR.siIdx (ix2 e k) ⟨List.idxOf (0 : Fin 2) dR.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show dR.start (ix2 e k) idx 1 + dR.batchCoord (ix2 e k) 1 + dR.offCoord (ix2 e k) 1 = _
    rw [GatherDims.batchCoord_eq_zero _ _ _ List.not_mem_nil]
    unfold GatherDims.start
    rw [dif_neg (show ¬ (1 : Fin 2) ∈ dR.startIndexMap by decide)]
    unfold GatherDims.offCoord
    rw [dif_pos (show (1 : Fin 2) ∈ dR.sKept by decide), Nat.zero_add]
    rfl

/-- The column gather at (channel c, edge e) is zT at (c, the clamped node of e): on axis 0 the offset coordinate c alone
    (start 0), on axis 1 the clamped start index alone. -/
theorem gatherCols_apply {α : Type} (zT : (⟨2, ![64, 100000]⟩ : Shape).Idx → α) (idx : IVec ⟨2, ![1600000, 1]⟩ 32)
    (c : Fin 64) (e : Fin 1600000) :
    Host.gather dK zT idx (ix2 c e) = zT (ix2 c (clampNode idx e)) := by
  unfold Host.gather
  refine congrArg zT (funext fun a => Fin.ext ?_)
  match a with
  | ⟨0, _⟩ =>
    show dK.start (ix2 c e) idx 0 + dK.batchCoord (ix2 c e) 0 + dK.offCoord (ix2 c e) 0 = _
    rw [GatherDims.batchCoord_eq_zero _ _ _ List.not_mem_nil]
    unfold GatherDims.start
    rw [dif_neg (show ¬ (0 : Fin 2) ∈ dK.startIndexMap by decide)]
    unfold GatherDims.offCoord
    rw [dif_pos (show (0 : Fin 2) ∈ dK.sKept by decide), Nat.zero_add]
    rfl
  | ⟨1, _⟩ =>
    show dK.start (ix2 c e) idx 1 + dK.batchCoord (ix2 c e) 1 + dK.offCoord (ix2 c e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ dK.startIndexMap from List.mem_singleton.mpr rfl)]
    have hsi : dK.siIdx (ix2 c e) ⟨List.idxOf (1 : Fin 2) dK.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- The transposed embedding at (channel c, node r) is the embedding at (r, c). -/
theorem transposed_apply {α : Type} (z : (⟨2, ![100000, 64]⟩ : Shape).Idx → α) (c : Fin 64) (r : Fin 100000) :
    transpose Cert.KernelIdeal.S64x100000 [1, 0] z Cert.KernelIdeal.Gen.transposes_S100000x64_S64x100000_1_0 (ix2 c r)
      = z (ix2 r c) :=
  transpose_apply _ z _ (ix2 c r) (ix2 r c) (fun b => match b with | ⟨0, _⟩ => rfl | ⟨1, _⟩ => rfl)

/-- The sum over the channel axis with initial value 0, read at an edge. -/
theorem reduceRows_apply (x : FVec Ideal Cert.ReferenceIdeal.S1600000x64 .f32) (e : Fin 1600000) :
    Host.reduceAdd (F := Ideal) x (constant Cert.ReferenceIdeal.S_ .f32 0x00000000#32)
        Cert.ReferenceIdeal.Gen.reducesTo_S1600000x64_S1600000_d1 Cert.ReferenceIdeal.Gen.h_S_ (ix1 e)
      = ∑ k : Fin 64, x (ix2 e k) := by
  simp only [Host.reduceAdd, Ideal.hostReduceAdd_def]
  rw [Ideal.hostReduceAdd_single Cert.ReferenceIdeal.Gen.reducesTo_S1600000x64_S1600000_d1 (by decide)]
  refine Eq.trans (congrArg (· + _) ?_) (zero_add _) |>.trans (Finset.sum_congr rfl fun k _ => ?_)
  · exact Ideal.ofBits_zero_f32
  · exact congrArg x (funext fun a => Fin.ext (by match a with | ⟨0, _⟩ => rfl | ⟨1, _⟩ => rfl))

/-- The reference's decode (rows of z gathered at the edges' ends, multiplied, summed over the channel axis) is the
    kernel's (columns of the transposed z gathered at the same indices, multiplied, summed down the columns, flattened),
    for any embedding z and any two index columns. -/
theorem decode_eq (z : (⟨Cert.KernelIdeal.S100000x64, .f32⟩ : BufTy).Contents (Elt Ideal))
    (is id : (⟨Cert.KernelIdeal.S1600000x1, .i32⟩ : BufTy).Contents (Elt Ideal)) :
    Host.reduceAdd (F := Ideal)
        (mulf (Host.gather Cert.ReferenceIdeal.gather_S100000x64_S1600000x1_S1600000x64_1_0_n_n_0_1_164 z is)
              (Host.gather Cert.ReferenceIdeal.gather_S100000x64_S1600000x1_S1600000x64_1_0_n_n_0_1_164 z id))
        (constant Cert.ReferenceIdeal.S_ .f32 0x00000000#32)
        Cert.ReferenceIdeal.Gen.reducesTo_S1600000x64_S1600000_d1 Cert.ReferenceIdeal.Gen.h_S_
      = shapeCast Cert.KernelIdeal.S1600000
          (Cert.Sage.colDot (E := 1600000)
            (Host.gather Cert.KernelIdeal.gather_S64x100000_S1600000x1_S64x1600000_0_1_n_n_1_1_641
              (transpose Cert.KernelIdeal.S64x100000 [1, 0] z Cert.KernelIdeal.Gen.transposes_S100000x64_S64x100000_1_0) is)
            (Host.gather Cert.KernelIdeal.gather_S64x100000_S1600000x1_S64x1600000_0_1_n_n_1_1_641
              (transpose Cert.KernelIdeal.S64x100000 [1, 0] z Cert.KernelIdeal.Gen.transposes_S100000x64_S64x100000_1_0) id))
          Cert.KernelIdeal.Gen.shapeCasts_S1x1600000_S1600000 := by
  funext i
  obtain ⟨e, rfl⟩ : ∃ e : Fin 1600000, i = ix1 e := ⟨i 0, eq_ix1 i⟩
  -- the kernel's side: the flattened row at e is the row at (0, e), a sum over the 64 channels
  refine Eq.trans ?_ (shapeCast_dropUnit_apply ![1600000] _ Cert.KernelIdeal.Gen.shapeCasts_S1x1600000_S1600000 (ix1 e)).symm
  -- the reference's side: 0 + the sum over the 64 channels of the row products
  refine (reduceRows_apply _ e).trans (Finset.sum_congr rfl fun c _ => ?_)
  show Host.gather dR z is (ix2 e c) * Host.gather dR z id (ix2 e c)
      = Host.gather dK _ is (ix2 c e) * Host.gather dK _ id (ix2 c e)
  -- term by term: both factors are z at (the clamped node of e in that column, c)
  rw [gatherRows_apply, gatherRows_apply, gatherCols_apply, gatherCols_apply, transposed_apply, transposed_apply]

end Cert.Decode

end
-- ==== Proof.RefScores.lean ====
/-
  The reference's result is `scores`: its last stages gather rows of the second layer's output at the edges' two ends
  (the indices wrapped exactly as the kernel program wraps them), multiply them and sum over the channels, which is
  the kernel program's column form of the same sum.
-/
import proofs.«143506_j81243601371376_1_alg».proof.Proof.RefValue
import proofs.«143506_j81243601371376_1_alg».proof.Proof.Decode

noncomputable section

namespace Cert.RefValue

open Cert.KernelIdeal.HostChain Cert.KernelIdeal.KTerm Idealize.ShloMosaic Idealize.ShloMosaic.TcCoe

variable (x0 : (⟨Cert.KernelIdeal.S100000x128, .f32⟩ : BufTy).Contents (Elt Ideal)) (x1 : (⟨Cert.KernelIdeal.S2x1600000, .i32⟩ : BufTy).Contents (Elt Ideal))
  (x2 x3 : (⟨Cert.KernelIdeal.S128x128, .f32⟩ : BufTy).Contents (Elt Ideal)) (x4 : (⟨Cert.KernelIdeal.S128, .f32⟩ : BufTy).Contents (Elt Ideal))
  (x5 x6 : (⟨Cert.KernelIdeal.S64x128, .f32⟩ : BufTy).Contents (Elt Ideal)) (x7 : (⟨Cert.KernelIdeal.S64, .f32⟩ : BufTy).Contents (Elt Ideal))

/-- The reference's result is `scores`. -/
theorem scores_eq : Cert.ReferenceIdeal.Read.val_main_v74 (F := Ideal) x0 x1 x2 x3 x4 x5 x6 x7 = scores x0 x1 x2 x3 x4 x5 x6 x7 := by
  unfold Cert.KernelIdeal.KTerm.scores Cert.KernelIdeal.HostChain.colGather
  rw [← embed_eq x0 x1 x2 x3 x4 x5 x6 x7]
  exact Cert.Decode.decode_eq (Cert.ReferenceIdeal.Read.val_main_v58 (F := Ideal) x0 x1 x2 x3 x4 x5 x6 x7)
    (wrapIdx (F := Ideal) (srcOf x1)) (wrapIdx (F := Ideal) (dstOf x1))

end Cert.RefValue

end
-- ==== Proof.lean ====
/-
  The certificate of a two-layer GraphSAGE link predictor against its jnp reference, over the extended reals.
  Both programs average each node's incoming neighbours' feature rows on the host with the same operations; the kernel
  program then computes each dense layer (two matrix products and a bias, the first layer clipped at zero) in a
  pallas_call tiled over 2000-row blocks, where the reference uses two `dot_general`s and adds the same three terms in
  another order; and it scores an edge by transposing the embedding, gathering columns at the edge's two ends and summing
  their products down the 64 channels in a pallas_call tiled over 12800-edge blocks, where the reference gathers rows and
  sums along them. Addition of extended reals is commutative and associative, so the two results are one function
  (`scores`) of the eight arguments, index by index; no finiteness of the inputs is used. The kernel program's frames are
  the generated ones; the reference's frame is its generated run with the result dropped; the ideal pass rewrote nothing.
-/
import proofs.«143506_j81243601371376_1_alg».proof.Defs
import proofs.«143506_j81243601371376_1_alg».proof.Proof.Gen.Kernel
import proofs.«143506_j81243601371376_1_alg».proof.Proof.Gen.Kernel.Skeleton
import proofs.«143506_j81243601371376_1_alg».proof.Proof.Gen.Kernel.Launch
import proofs.«143506_j81243601371376_1_alg».proof.Proof.Gen.Kernel.Points
import proofs.«143506_j81243601371376_1_alg».proof.Proof.Gen.Kernel.Frame
import proofs.«143506_j81243601371376_1_alg».proof.Proof.Gen.KernelIdeal
import proofs.«143506_j81243601371376_1_alg».proof.Proof.Gen.KernelIdeal.Skeleton
import proofs.«143506_j81243601371376_1_alg».proof.Proof.Gen.KernelIdeal.Launch
import proofs.«143506_j81243601371376_1_alg».proof.Proof.Gen.KernelIdeal.Points
import proofs.«143506_j81243601371376_1_alg».proof.Proof.Gen.KernelIdeal.Frame
import proofs.«143506_j81243601371376_1_alg».proof.Proof.Gen.ReferenceIdeal
import proofs.«143506_j81243601371376_1_alg».proof.Proof.Gen.Pre_finite_inputs
import proofs.«143506_j81243601371376_1_alg».proof.Proof.Gen.ReferenceIdeal.Run
import proofs.«143506_j81243601371376_1_alg».proof.Proof.Gen.ReferenceIdeal.Read
import proofs.«143506_j81243601371376_1_alg».proof.Proof.KRun
import proofs.«143506_j81243601371376_1_alg».proof.Proof.KValue
import proofs.«143506_j81243601371376_1_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `scores` of the (agreeing) arguments in their result buffers. -/
theorem algebraic : Cert.algebraic_KernelIdeal_ReferenceIdeal := by
  intro m ρ m' ρ' _ hagree
  refine ⟨fun c => Cert.KernelIdeal.KTerm.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.scores_eq m ρ c), (h c).2⟩)
      (Cert.KernelIdeal.ValueRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v74_eq, Cert.RefValue.scores_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
